-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S1600000 : Shape := ⟨1, ![1600000]⟩
abbrev S3x150 : Shape := ⟨2, ![3, 150]⟩
abbrev S150 : Shape := ⟨1, ![150]⟩
abbrev S150x64 : Shape := ⟨2, ![150, 64]⟩
abbrev S64 : Shape := ⟨1, ![64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x150 : S_.BroadcastsInDim S3x150 (![] : Fin 0 → Fin S3x150.rank)
  reducesTo_S3x150_S_d0_1 : S3x150.ReducesTo [0, 1] S_
  bcast_S_S150 : S_.BroadcastsInDim S150 (![] : Fin 0 → Fin S150.rank)
  reducesTo_S150_S_d0 : S150.ReducesTo [0] S_
  bcast_S_S150x64 : S_.BroadcastsInDim S150x64 (![] : Fin 0 → Fin S150x64.rank)
  reducesTo_S150x64_S_d0_1 : S150x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S150x64 .f32) (main_arg7 : FVec F S150x64 .f32) (main_arg8 : FVec F S64 .f32) (main_v13 : IVec S_ 1) (main_v16 : IVec S150 1) : IVec S_ 1 :=
  let main_c_5 : IVec S_ 1 := constantI S_ 1 1#1
  let main_v17 : IVec S_ 1 := (fun x v => Host.reduce IntOp.andi x v reducesTo_S150_S_d0 h_S_) main_v16 main_c_5
  let main_v18 : IVec S_ 1 := andi main_v13 main_v17
  let main_v19 : FVec F S150x64 .f32 := Host.absf main_arg6
  let main_cst_6 : FVec F S_ .f32 := constant S_ .f32 0x7F800000#32
  let main_v20 : FVec F S150x64 .f32 := broadcastInDim S150x64 ![] bcast_S_S150x64 main_cst_6
  let main_v21 : IVec S150x64 1 := cmpf .olt main_v19 main_v20
  let main_c_7 : IVec S_ 1 := constantI S_ 1 1#1
  let main_v22 : IVec S_ 1 := (fun x v => Host.reduce IntOp.andi x v reducesTo_S150x64_S_d0_1 h_S_) main_v21 main_c_7
  let main_v23 : IVec S_ 1 := andi main_v18 main_v22
  let main_v24 : FVec F S150x64 .f32 := Host.absf main_arg7
  let main_cst_8 : FVec F S_ .f32 := constant S_ .f32 0x7F800000#32
  let main_v25 : FVec F S150x64 .f32 := broadcastInDim S150x64 ![] bcast_S_S150x64 main_cst_8
  let main_v26 : IVec S150x64 1 := cmpf .olt main_v24 main_v25
  let main_c_9 : IVec S_ 1 := constantI S_ 1 1#1
  let main_v27 : IVec S_ 1 := (fun x v => Host.reduce IntOp.andi x v reducesTo_S150x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x3 .f32) (main_arg1 : IVec S1600000 32) (main_arg2 : IVec S1600000 32) (main_arg3 : FVec F S3x150 .f32) (main_arg4 : FVec F S3x150 .f32) (main_arg5 : FVec F S150 .f32) (main_arg6 : FVec F S150x64 .f32) (main_arg7 : FVec F S150x64 .f32) (main_arg8 : FVec F S64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x150 .f32 := Host.absf main_arg3
  let main_cst_0 : FVec F S_ .f32 := constant S_ .f32 0x7F800000#32
  let main_v5 : FVec F S3x150 .f32 := broadcastInDim S3x150 ![] bcast_S_S3x150 main_cst_0
  let main_v6 : IVec S3x150 1 := cmpf .olt main_v4 main_v5
  let main_c_1 : IVec S_ 1 := constantI S_ 1 1#1
  let main_v7 : IVec S_ 1 := (fun x v => Host.reduce IntOp.andi x v reducesTo_S3x150_S_d0_1 h_S_) main_v6 main_c_1
  let main_v8 : IVec S_ 1 := andi main_v3 main_v7
  let main_v9 : FVec F S3x150 .f32 := Host.absf main_arg4
  let main_cst_2 : FVec F S_ .f32 := constant S_ .f32 0x7F800000#32
  let main_v10 : FVec F S3x150 .f32 := broadcastInDim S3x150 ![] bcast_S_S3x150 main_cst_2
  let main_v11 : IVec S3x150 1 := cmpf .olt main_v9 main_v10
  let main_c_3 : IVec S_ 1 := constantI S_ 1 1#1
  let main_v12 : IVec S_ 1 := (fun x v => Host.reduce IntOp.andi x v reducesTo_S3x150_S_d0_1 h_S_) main_v11 main_c_3
  let main_v13 : IVec S_ 1 := andi main_v8 main_v12
  let main_v14 : FVec F S150 .f32 := Host.absf main_arg5
  let main_cst_4 : FVec F S_ .f32 := constant S_ .f32 0x7F800000#32
  let main_v15 : FVec F S150 .f32 := broadcastInDim S150 ![] bcast_S_S150 main_cst_4
  let main_v16 : IVec S150 1 := cmpf .olt main_v14 main_v15
  fn_part1 (F := F) main_arg6 main_arg7 main_arg8 main_v13 main_v16
-- ==== Kernel.lean ====
abbrev S100000x3 : Shape := ⟨2, ![100000, 3]⟩
abbrev S1600000 : Shape := ⟨1, ![1600000]⟩
abbrev S3x150 : Shape := ⟨2, ![3, 150]⟩
abbrev S150 : Shape := ⟨1, ![150]⟩
abbrev S150x64 : Shape := ⟨2, ![150, 64]⟩
abbrev S64 : Shape := ⟨1, ![64]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S1x150 : Shape := ⟨2, ![1, 150]⟩
abbrev S100000x150 : Shape := ⟨2, ![100000, 150]⟩
abbrev S5000x3 : Shape := ⟨2, ![5000, 3]⟩
abbrev S5000x150 : Shape := ⟨2, ![5000, 150]⟩
abbrev S1600000x150 : Shape := ⟨2, ![1600000, 150]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x3, .f32⟩
  | .hbm, ⟨1, _⟩ => ⟨S1600000, .i32⟩
  | .hbm, ⟨2, _⟩ => ⟨S1600000, .i32⟩
  | .hbm, ⟨3, _⟩ => ⟨S3x150, .f32⟩
  | .hbm, ⟨4, _⟩ => ⟨S3x150, .f32⟩
  | .hbm, ⟨5, _⟩ => ⟨S150, .f32⟩
  | .hbm, ⟨6, _⟩ => ⟨S150x64, .f32⟩
  | .hbm, ⟨7, _⟩ => ⟨S150x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x3, .f32⟩
  | .hbm, ⟨18, _⟩ => ⟨S_, .f32⟩
  | .hbm, ⟨19, _⟩ => ⟨S100000x3, .f32⟩
  | .hbm, ⟨20, _⟩ => ⟨S1600000x1, .i32⟩
  | .hbm, ⟨21, _⟩ => ⟨S100000x3, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x3, .f32⟩
  | .hbm, ⟨33, _⟩ => ⟨S100000x3, .f32⟩
  | .hbm, ⟨34, _⟩ => ⟨S1x150, .f32⟩
  | .hbm, ⟨35, _⟩ => ⟨S100000x150, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x150, .f32⟩
  | .hbm, ⟨45, _⟩ => ⟨S_, .f32⟩
  | .hbm, ⟨46, _⟩ => ⟨S100000x150, .f32⟩
  | .hbm, ⟨47, _⟩ => ⟨S1600000x1, .i32⟩
  | .hbm, ⟨48, _⟩ => ⟨S100000x150, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x150, .f32⟩
  | .hbm, ⟨60, _⟩ => ⟨S100000x150, .f32⟩
  | .hbm, ⟨61, _⟩ => ⟨S1x64, .f32⟩
  | .hbm, ⟨62, _⟩ => ⟨S100000x64, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S3x150, .f32⟩
  | .local _ .vmem, ⟨5, _⟩ => ⟨S3x150, .f32⟩
  | .local _ .vmem, ⟨6, _⟩ => ⟨S1x150, .f32⟩
  | .local _ .vmem, ⟨7, _⟩ => ⟨S5000x150, .f32⟩
  | .local _ .vmem, ⟨8, _⟩ => ⟨S5000x150, .f32⟩
  | .local _ .vmem, ⟨9, _⟩ => ⟨S5000x150, .f32⟩
  | .local _ .vmem, ⟨10, _⟩ => ⟨S5000x150, .f32⟩
  | .local _ .vmem, ⟨11, _⟩ => ⟨S5000x150, .f32⟩
  | .local _ .vmem, ⟨12, _⟩ => ⟨S5000x150, .f32⟩
  | .local _ .vmem, ⟨13, _⟩ => ⟨S150x64, .f32⟩
  | .local _ .vmem, ⟨14, _⟩ => ⟨S150x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x150 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x150 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x150 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S150x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S150x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  shapeCasts_S150_S1x150 : S150.ShapeCasts S1x150
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  shapeCasts_S5000x3_S5000x3 : S5000x3.ShapeCasts S5000x3
  inb_S3x150_S3x150_0_0 : ∀ a, (![0, 0] : Fin 2 → Nat) a + S3x150.size a ≤ S3x150.size a
  h_S3x150 : 0 < S3x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S5000x150 : S1x150.Broadcasts S5000x150
  inb_S5000x150_S5000x150_0_0 : ∀ a, (![0, 0] : Fin 2 → Nat) a + S5000x150.size a ≤ S5000x150.size a
  h_S5000x150 : 0 < S5000x150.numel
  bcast_S_S100000x150 : S_.BroadcastsInDim S100000x150 (![] : Fin 0 → Fin S100000x150.rank)
  bcast_S100000x1_S100000x150_0_1 : S100000x1.BroadcastsInDim S100000x150 (![0, 1] : Fin 2 → Fin S100000x150.rank)
  shapeCasts_S64_S1x64 : S64.ShapeCasts S1x64
  shapeCasts_S5000x150_S5000x150 : S5000x150.ShapeCasts S5000x150
  inb_S150x64_S150x64_0_0 : ∀ a, (![0, 0] : Fin 2 → Nat) a + S150x64.size a ≤ S150x64.size a
  h_S150x64 : 0 < S150x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S5000x3_S3x150_S5000x150_1_0_0_1_n_n_wf : DotDims.WF S5000x3 S3x150 S5000x150 [1] [0] [0] [1] [] []
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S5000x150_S150x64_S5000x64_1_0_0_1_n_n_wf : DotDims.WF S5000x150 S150x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x150.size a ≤ S3x150.size a
  hwx0_2 : ∀ i : grid0.Coords, EltTy.bits .f32 = 32 ∨ (Rect.block (s := S3x150) S3x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x150.size a ≤ S3x150.size a
  hwx0_3 : ∀ i : grid0.Coords, EltTy.bits .f32 = 32 ∨ (Rect.block (s := S3x150) S3x150.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x150.size a ≤ S1x150.size a
  hwx0_4 : ∀ i : grid0.Coords, EltTy.bits .f32 = 32 ∨ (Rect.block (s := S1x150) S1x150.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x150.size a ≤ S100000x150.size a
  hwx0_5 : ∀ i : grid0.Coords, EltTy.bits .f32 = 32 ∨ (Rect.block (s := S100000x150) S5000x150.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x150.size a ≤ S100000x150.size a
  hwx1_0 : ∀ i : grid1.Coords, EltTy.bits .f32 = 32 ∨ (Rect.block (s := S100000x150) S5000x150.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x150.size a ≤ S100000x150.size a
  hwx1_1 : ∀ i : grid1.Coords, EltTy.bits .f32 = 32 ∨ (Rect.block (s := S100000x150) S5000x150.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S150x64.size a ≤ S150x64.size a
  hwx1_2 : ∀ i : grid1.Coords, EltTy.bits .f32 = 32 ∨ (Rect.block (s := S150x64) S150x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S150x64.size a ≤ S150x64.size a
  hwx1_3 : ∀ i : grid1.Coords, EltTy.bits .f32 = 32 ∨ (Rect.block (s := S150x64) S150x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x3_S3x150_S5000x150_1_0_0_1_n_n : DotDims S5000x3 S3x150 S5000x150 where
  lhsContracting := [1]
  rhsContracting := [0]
  lhsNonContracting := [0]
  rhsNonContracting := [1]
  lhsBatch := []
  rhsBatch := []
  wf := dot_S5000x3_S3x150_S5000x150_1_0_0_1_n_n_wf
def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S5000x150_S150x64_S5000x64_1_0_0_1_n_n : DotDims S5000x150 S150x64 S5000x64 where
  lhsContracting := [1]
  rhsContracting := [0]
  lhsNonContracting := [0]
  rhsNonContracting := [1]
  lhsBatch := []
  rhsBatch := []
  wf := dot_S5000x150_S150x64_S5000x64_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x150.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x150.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x150.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x150.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x150.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S150x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S150x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x3 : Shape := ⟨2, ![100000, 3]⟩
abbrev S1600000 : Shape := ⟨1, ![1600000]⟩
abbrev S3x150 : Shape := ⟨2, ![3, 150]⟩
abbrev S150 : Shape := ⟨1, ![150]⟩
abbrev S150x64 : Shape := ⟨2, ![150, 64]⟩
abbrev S64 : Shape := ⟨1, ![64]⟩
abbrev S_ : Shape := ⟨0, ![]⟩
abbrev S1600000x1 : Shape := ⟨2, ![1600000, 1]⟩
abbrev S1600000x3 : Shape := ⟨2, ![1600000, 3]⟩
abbrev S100000 : Shape := ⟨1, ![100000]⟩
abbrev S100000x1 : Shape := ⟨2, ![100000, 1]⟩
abbrev S100000x150 : Shape := ⟨2, ![100000, 150]⟩
abbrev S1x150 : Shape := ⟨2, ![1, 150]⟩
abbrev S1600000x150 : Shape := ⟨2, ![1600000, 150]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S1600000, .i32⟩
  | .hbm, ⟨2, _⟩ => ⟨S1600000, .i32⟩
  | .hbm, ⟨3, _⟩ => ⟨S3x150, .f32⟩
  | .hbm, ⟨4, _⟩ => ⟨S3x150, .f32⟩
  | .hbm, ⟨5, _⟩ => ⟨S150, .f32⟩
  | .hbm, ⟨6, _⟩ => ⟨S150x64, .f32⟩
  | .hbm, ⟨7, _⟩ => ⟨S150x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x3, .f32⟩
  | .hbm, ⟨18, _⟩ => ⟨S_, .f32⟩
  | .hbm, ⟨19, _⟩ => ⟨S100000x3, .f32⟩
  | .hbm, ⟨20, _⟩ => ⟨S1600000x1, .i32⟩
  | .hbm, ⟨21, _⟩ => ⟨S100000x3, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x3, .f32⟩
  | .hbm, ⟨33, _⟩ => ⟨S100000x3, .f32⟩
  | .hbm, ⟨34, _⟩ => ⟨S100000x150, .f32⟩
  | .hbm, ⟨35, _⟩ => ⟨S100000x150, .f32⟩
  | .hbm, ⟨36, _⟩ => ⟨S100000x150, .f32⟩
  | .hbm, ⟨37, _⟩ => ⟨S1x150, .f32⟩
  | .hbm, ⟨38, _⟩ => ⟨S100000x150, .f32⟩
  | .hbm, ⟨39, _⟩ => ⟨S100000x150, .f32⟩
  | .hbm, ⟨40, _⟩ => ⟨S_, .f32⟩
  | .hbm, ⟨41, _⟩ => ⟨S100000x150, .f32⟩
  | .hbm, ⟨42, _⟩ => ⟨S100000x150, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x150, .f32⟩
  | .hbm, ⟨52, _⟩ => ⟨S_, .f32⟩
  | .hbm, ⟨53, _⟩ => ⟨S100000x150, .f32⟩
  | .hbm, ⟨54, _⟩ => ⟨S1600000x1, .i32⟩
  | .hbm, ⟨55, _⟩ => ⟨S100000x150, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x150, .f32⟩
  | .hbm, ⟨67, _⟩ => ⟨S100000x150, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S150_S1x150_1 : S150.BroadcastsInDim S1x150 (![1] : Fin 1 → Fin S1x150.rank)
  bcast_S1x150_S100000x150_0_1 : S1x150.BroadcastsInDim S100000x150 (![0, 1] : Fin 2 → Fin S100000x150.rank)
  bcast_S_S100000x150 : S_.BroadcastsInDim S100000x150 (![] : Fin 0 → Fin S100000x150.rank)
  bcast_S100000x1_S100000x150_0_1 : S100000x1.BroadcastsInDim S100000x150 (![0, 1] : Fin 2 → Fin S100000x150.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S100000x3_S3x150_S100000x150_1_0_0_1_n_n_wf : DotDims.WF S100000x3 S3x150 S100000x150 [1] [0] [0] [1] [] []
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S100000x150_S150x64_S100000x64_1_0_0_1_n_n_wf : DotDims.WF S100000x150 S150x64 S100000x64 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x3_S3x150_S100000x150_1_0_0_1_n_n : DotDims S100000x3 S3x150 S100000x150 where
  lhsContracting := [1]
  rhsContracting := [0]
  lhsNonContracting := [0]
  rhsNonContracting := [1]
  lhsBatch := []
  rhsBatch := []
  wf := dot_S100000x3_S3x150_S100000x150_1_0_0_1_n_n_wf
def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S100000x150_S150x64_S100000x64_1_0_0_1_n_n : DotDims S100000x150 S150x64 S100000x64 where
  lhsContracting := [1]
  rhsContracting := [0]
  lhsNonContracting := [0]
  rhsNonContracting := [1]
  lhsBatch := []
  rhsBatch := []
  wf := dot_S100000x150_S150x64_S100000x64_1_0_0_1_n_n_wf

class Facts : Prop extends Facts₀ where

variable [Facts]
-- ==== Proof.HiddenBlock.lean ====
/-
  The hidden layer's block, index by index.

  One grid point of the first dense call holds a block of 5000 node rows. Its stored value at row r, column q is
      max ( (Σₖ x[r,k]·Wself[k,q] + Σₖ hn[r,k]·Wneigh[k,q]) + b[0,q] , 0 )
  over the extended reals: the two bf16 narrowings are the identity there, each product into a zero accumulator is the
  plain sum over the three input features, the bias row is repeated down the rows, and the rectifier is a maximum
  with zero.
-/
import proofs.«124458_j2456721293647_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.HiddenBlock

open Cert.KernelIdeal Cert.KernelIdeal.Gen Idealize.ShloMosaic Idealize.ShloMosaic.TcCoe Idealize.SL.Sem

variable [Facts]
open Facts₀ Facts

/-! ## The product's index maps, axis by axis -/

theorem lhs_axis0 (i : S5000x150.Idx) (q : dot_S5000x3_S3x150_S5000x150_1_0_0_1_n_n.contr.Idx) :
    (dot_S5000x3_S3x150_S5000x150_1_0_0_1_n_n.lhsIdx i q 0).val = (i 0).val := by
  unfold DotDims.lhsIdx
  rw [dif_neg (show ¬(0 : Fin S5000x3.rank) ∈ dot_S5000x3_S3x150_S5000x150_1_0_0_1_n_n.lhsBatch by decide), dif_pos (show (0 : Fin S5000x3.rank) ∈ dot_S5000x3_S3x150_S5000x150_1_0_0_1_n_n.lhsNonContracting by decide)]
  rfl
theorem lhs_axis1 (i : S5000x150.Idx) (q : dot_S5000x3_S3x150_S5000x150_1_0_0_1_n_n.contr.Idx) :
    (dot_S5000x3_S3x150_S5000x150_1_0_0_1_n_n.lhsIdx i q 1).val = (q ⟨0, by decide⟩).val :=
  dot_S5000x3_S3x150_S5000x150_1_0_0_1_n_n.lhsIdx_val_of_single rfl i q
theorem rhs_axis0 (i : S5000x150.Idx) (q : dot_S5000x3_S3x150_S5000x150_1_0_0_1_n_n.contr.Idx) :
    (dot_S5000x3_S3x150_S5000x150_1_0_0_1_n_n.rhsIdx i q 0).val = (q ⟨0, by decide⟩).val :=
  dot_S5000x3_S3x150_S5000x150_1_0_0_1_n_n.rhsIdx_val_of_single rfl i q
theorem rhs_axis1 (i : S5000x150.Idx) (q : dot_S5000x3_S3x150_S5000x150_1_0_0_1_n_n.contr.Idx) :
    (dot_S5000x3_S3x150_S5000x150_1_0_0_1_n_n.rhsIdx i q 1).val = (i 1).val := by
  unfold DotDims.rhsIdx
  rw [dif_neg (show ¬(1 : Fin S3x150.rank) ∈ dot_S5000x3_S3x150_S5000x150_1_0_0_1_n_n.rhsBatch by decide), dif_pos (show (1 : Fin S3x150.rank) ∈ dot_S5000x3_S3x150_S5000x150_1_0_0_1_n_n.rhsNonContracting by decide)]
  rfl

/-- Row `i 0` of a 5000×3 block at feature `k`. -/
abbrev rowAt (i : S5000x150.Idx) (k : Fin 3) : S5000x3.Idx := fun a => match a with
  | ⟨0, _⟩ => ⟨(i 0).val, (i 0).isLt⟩
  | ⟨1, _⟩ => ⟨k.val, k.isLt⟩
/-- Feature `k` of a 3×150 weight at column `i 1`. -/
abbrev colAt (i : S5000x150.Idx) (k : Fin 3) : S3x150.Idx := fun a => match a with
  | ⟨0, _⟩ => ⟨k.val, k.isLt⟩
  | ⟨1, _⟩ => ⟨(i 1).val, (i 1).isLt⟩
/-- The bias row at column `i 1`. -/
abbrev biasAt (i : S5000x150.Idx) : S1x150.Idx := fun a => match a with
  | ⟨0, _⟩ => ⟨0, Nat.one_pos⟩
  | ⟨1, _⟩ => ⟨(i 1).val, (i 1).isLt⟩

/-- A product into a zero accumulator is the sum over the three features. -/
theorem product_apply (a : FVec Ideal S5000x3 .bf16) (b : FVec Ideal S3x150 .bf16) (i : S5000x150.Idx) :
    matmul dot_S5000x3_S3x150_S5000x150_1_0_0_1_n_n none a b (constant (F := Ideal) S5000x150 .f32 0x00000000#32) i
      = ∑ k : Fin 3, a (rowAt i k) * b (colAt i k) := by
  refine (Ideal.matmul_constant_zero_apply dot_S5000x3_S3x150_S5000x150_1_0_0_1_n_n none a b i).trans ?_
  rw [← Equiv.sum_comp (ValueIdx.contrEquiv1 dot_S5000x3_S3x150_S5000x150_1_0_0_1_n_n 3 rfl rfl).symm]
  refine Finset.sum_congr rfl fun k _ => ?_
  have hk := ValueIdx.contrEquiv1_symm_val dot_S5000x3_S3x150_S5000x150_1_0_0_1_n_n 3 rfl rfl k
  have el : dot_S5000x3_S3x150_S5000x150_1_0_0_1_n_n.lhsIdx i ((ValueIdx.contrEquiv1 dot_S5000x3_S3x150_S5000x150_1_0_0_1_n_n 3 rfl rfl).symm k) = rowAt i k := funext fun a => Fin.ext (by
    match a with
    | ⟨0, _⟩ => exact lhs_axis0 _ _
    | ⟨1, _⟩ => exact (lhs_axis1 _ _).trans hk)
  have er : dot_S5000x3_S3x150_S5000x150_1_0_0_1_n_n.rhsIdx i ((ValueIdx.contrEquiv1 dot_S5000x3_S3x150_S5000x150_1_0_0_1_n_n 3 rfl rfl).symm k) = colAt i k := funext fun a => Fin.ext (by
    match a with
    | ⟨0, _⟩ => exact (rhs_axis0 _ _).trans hk
    | ⟨1, _⟩ => exact rhs_axis1 _ _)
  rw [el, er]

/-- The bias row repeated down the block's rows. -/
theorem bias_apply (brow : S1x150.Idx → EReal) (h : S1x150.Broadcasts S5000x150) (i : S5000x150.Idx) :
    broadcastTo S5000x150 brow h i = brow (biasAt i) :=
  broadcastTo_apply brow h i (biasAt i) (fun a => match a with
    | ⟨0, _⟩ => by show 0 = if (1 : Nat) = 1 then 0 else (i 0).val; rw [if_pos rfl]
    | ⟨1, _⟩ => by show (i 1).val = if (150 : Nat) = 1 then 0 else (i 1).val; rw [if_neg (by decide)])

/-- The block's stored value at an index. -/
theorem payload_apply (x hn : Vec Ideal S5000x3 .f32) (ws wn : Vec Ideal S3x150 .f32) (brow : Vec Ideal S1x150 .f32)
    (i : S5000x150.Idx) :
    k0_pay1 (F := Ideal) x hn ws wn brow i
      = max ((∑ k : Fin 3, x (rowAt i k) * ws (colAt i k)) + (∑ k : Fin 3, hn (rowAt i k) * wn (colAt i k))
          + brow (biasAt i)) 0 := by
  unfold k0_pay1
  simp only [ValueIdx.maximumf_apply, ValueIdx.addf_apply, product_apply, ValueIdx.truncf_apply, shapeCast_self,
    ValueIdx.broadcast_apply, bias_apply, Ideal.ofBits_def, Ideal.ofBits_zero_f32]

end Cert.KernelIdeal.HiddenBlock

end
-- ==== Proof.HiddenArray.lean ====
/-
  The hidden features as ONE array.

  The first dense call runs over twenty blocks of 5000 node rows. Point t reads rows 5000·t … 5000·t+4999 of the node
  features and of their neighbourhood means, the whole of the two 3×150 weights and of the 1×150 bias row, and writes
  back rows 5000·t … 5000·t+4999 of the result. Every point's block is the restriction of one function of the whole
  arrays, `hidden`; the twenty blocks tile the 100000 rows; so after the call the result array is `hidden`.
-/
import proofs.«124458_j2456721293647_1_alg».proof.Proof.Gen.KernelIdeal.Frame
import proofs.«124458_j2456721293647_1_alg».proof.Proof.HiddenBlock

set_option maxRecDepth 16384

noncomputable section

namespace Cert.KernelIdeal.HiddenArray

open Cert.KernelIdeal Cert.KernelIdeal.Gen Idealize.ShloMosaic Idealize.ShloMosaic.TcCoe Idealize.SL.Sem
open Idealize.ShloMosaic.Pipeline (Dat Cfg Window)

variable [Facts]
open Facts₀ Facts

/-- Node row `i 0` at input feature `k`. -/
abbrev rowAt (i : S100000x150.Idx) (k : Fin 3) : S100000x3.Idx := fun a => match a with
  | ⟨0, _⟩ => ⟨(i 0).val, (i 0).isLt⟩
  | ⟨1, _⟩ => ⟨k.val, k.isLt⟩
/-- Input feature `k` of a 3×150 weight at hidden column `i 1`. -/
abbrev colAt (i : S100000x150.Idx) (k : Fin 3) : S3x150.Idx := fun a => match a with
  | ⟨0, _⟩ => ⟨k.val, k.isLt⟩
  | ⟨1, _⟩ => ⟨(i 1).val, (i 1).isLt⟩
/-- The bias row at hidden column `i 1`. -/
abbrev biasAt (i : S100000x150.Idx) : S1x150.Idx := fun a => match a with
  | ⟨0, _⟩ => ⟨0, Nat.one_pos⟩
  | ⟨1, _⟩ => ⟨(i 1).val, (i 1).isLt⟩

/-- The hidden features of every node: max((x·Wself + hn·Wneigh) + b, 0), entry by entry. -/
def hidden (x hn : Vec Ideal S100000x3 .f32) (ws wn : Vec Ideal S3x150 .f32) (brow : Vec Ideal S1x150 .f32) :
    Vec Ideal S100000x150 .f32 := fun i =>
  max ((∑ k : Fin 3, x (rowAt i k) * ws (colAt i k)) + (∑ k : Fin 3, hn (rowAt i k) * wn (colAt i k))
    + brow (biasAt i)) 0

theorem zeros : (![0, 0] : Fin 2 → Nat) = fun _ => 0 := funext fun a => by fin_cases a <;> rfl

/-- Where each window's block sits at point `t`: the two row-blocked inputs move with the output, the weights and the
    bias row stay at the origin, and the output's block row is the point's number. -/
theorem block_places : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block row is some point's. -/
theorem block_onto : ∀ q0 : Fin 20, ∃ t : Fin cfg0.N, win0_5.index t = ![q0.val, 0] :=
  (by decide +kernel : ∀ q0 : Fin 20, ∃ t : Fin grid0.N, win0_5.index t = ![q0.val, 0])

/-- A block's stored value is `hidden` at the array index the block index sits at, once every element the block reads
    is the array's element at the matching place. -/
theorem block_eq (x hn : Vec Ideal S5000x3 .f32) (ws wn : Vec Ideal S3x150 .f32) (brow : Vec Ideal S1x150 .f32)
    (X HN : Vec Ideal S100000x3 .f32) (WS WN : Vec Ideal S3x150 .f32) (BROW : Vec Ideal S1x150 .f32)
    (j : S5000x150.Idx) (i : S100000x150.Idx)
    (hx : ∀ k, x (HiddenBlock.rowAt j k) = X (rowAt i k)) (hhn : ∀ k, hn (HiddenBlock.rowAt j k) = HN (rowAt i k))
    (hws : ∀ k, ws (HiddenBlock.colAt j k) = WS (colAt i k)) (hwn : ∀ k, wn (HiddenBlock.colAt j k) = WN (colAt i k))
    (hb : brow (HiddenBlock.biasAt j) = BROW (biasAt i)) :
    k0_pay1 (F := Ideal) x hn ws wn brow j = hidden X HN WS WN BROW i := by
  rw [HiddenBlock.payload_apply]
  unfold hidden
  simp only [hx, hhn, hws, hwn, hb]

section
variable (V : (c : Dev nD) → (b : Ref sig .tc) → Buf (Elt Ideal) ((c : Thread nD τ).loc b))

/-- What point `t` writes back is block `t` of `hidden` of the arrays as the call finds them. -/
theorem flushed_eq (c : Dev nD) (t : Fin cfg0.N) :
    (dat0 V c).flushed 5 t = ((cfg0.win 5).blk t).view.read (Elt Ideal)
      (hidden (V c main_arg0) (V c main_v18) (V c main_arg3) (V c main_arg4) (V c main_v19)) := by
  show (cfg0.win 5).cut (grid0.coords t) ((dat0 V c).after 5 t) = _
  rw [after0_5]
  unfold out0_5
  rw [View.canon_unit_zero zeros]
  simp only [View.ld_unit_zero (S := S5000x3) zeros, View.ld_unit_zero (S := S3x150) zeros, View.ld_unit_zero (S := S1x150) zeros]
  refine funext fun (j : S5000x150.Idx) => ?_
  obtain ⟨e00, e01, e10, e11, e20, e21, e30, e31, e40, e41, e51, -⟩ := block_places t
  refine block_eq _ _ _ _ _ (V c main_arg0) (V c main_v18) (V c main_arg3) (V c main_arg4) (V c main_v19) j
    (((cfg0.win 5).blk t).view.emb j) ?_ ?_ ?_ ?_ ?_
  · intro k
    have h : ((cfg0.win 0).blk t).view.emb (HiddenBlock.rowAt j k) = rowAt (((cfg0.win 5).blk t).view.emb j) k := by
      funext a; apply Fin.ext
      match a with
      | ⟨0, _⟩ => show win0_0.index t (0 : Fin 2) * 5000 + 1 * (j 0).val = win0_5.index t (0 : Fin 2) * 5000 + 1 * (j 0).val; omega
      | ⟨1, _⟩ => show win0_0.index t (1 : Fin 2) * 3 + 1 * k.val = k.val; omega
    show V c main_arg0 (((cfg0.win 0).blk t).view.emb (HiddenBlock.rowAt j k)) = _
    rw [h]
  · intro k
    have h : ((cfg0.win 1).blk t).view.emb (HiddenBlock.rowAt j k) = rowAt (((cfg0.win 5).blk t).view.emb j) k := by
      funext a; apply Fin.ext
      match a with
      | ⟨0, _⟩ => show win0_1.index t (0 : Fin 2) * 5000 + 1 * (j 0).val = win0_5.index t (0 : Fin 2) * 5000 + 1 * (j 0).val; omega
      | ⟨1, _⟩ => show win0_1.index t (1 : Fin 2) * 3 + 1 * k.val = k.val; omega
    show V c main_v18 (((cfg0.win 1).blk t).view.emb (HiddenBlock.rowAt j k)) = _
    rw [h]
  · intro k
    have h : ((cfg0.win 2).blk t).view.emb (HiddenBlock.colAt j k) = colAt (((cfg0.win 5).blk t).view.emb j) k := by
      funext a; apply Fin.ext
      match a with
      | ⟨0, _⟩ => show win0_2.index t (0 : Fin 2) * 3 + 1 * k.val = k.val; omega
      | ⟨1, _⟩ => show win0_2.index t (1 : Fin 2) * 150 + 1 * (j 1).val = win0_5.index t (1 : Fin 2) * 150 + 1 * (j 1).val; omega
    show V c main_arg3 (((cfg0.win 2).blk t).view.emb (HiddenBlock.colAt j k)) = _
    rw [h]
  · intro k
    have h : ((cfg0.win 3).blk t).view.emb (HiddenBlock.colAt j k) = colAt (((cfg0.win 5).blk t).view.emb j) k := by
      funext a; apply Fin.ext
      match a with
      | ⟨0, _⟩ => show win0_3.index t (0 : Fin 2) * 3 + 1 * k.val = k.val; omega
      | ⟨1, _⟩ => show win0_3.index t (1 : Fin 2) * 150 + 1 * (j 1).val = win0_5.index t (1 : Fin 2) * 150 + 1 * (j 1).val; omega
    show V c main_arg4 (((cfg0.win 3).blk t).view.emb (HiddenBlock.colAt j k)) = _
    rw [h]
  · have h : ((cfg0.win 4).blk t).view.emb (HiddenBlock.biasAt j) = biasAt (((cfg0.win 5).blk t).view.emb j) := by
      funext a; apply Fin.ext
      match a with
      | ⟨0, _⟩ => show win0_4.index t (0 : Fin 2) * 1 + 1 * 0 = 0; omega
      | ⟨1, _⟩ => show win0_4.index t (1 : Fin 2) * 150 + 1 * (j 1).val = win0_5.index t (1 : Fin 2) * 150 + 1 * (j 1).val; omega
    show V c main_v19 (((cfg0.win 4).blk t).view.emb (HiddenBlock.biasAt j)) = _
    rw [h]

/-- An index of the result array lies in point `t`'s block iff each coordinate lies in the block's range. -/
theorem mem_block (t : Fin cfg0.N) (i : S100000x150.Idx) :
    i ∈ ((cfg0.win 5).blk t).view.set ↔ ∀ a : Fin 2, win0_5.index t a * S5000x150.size a ≤ (i a).val
      ∧ (i a).val < win0_5.index t a * S5000x150.size a + S5000x150.size a := by
  show i ∈ ((View.whole main_v20).slice (win0_5.rect t)).set ↔ _
  rw [View.set_slice_whole, Rect.mem_set_unit]
  exact Iff.rfl

/-- The twenty blocks tile the array: row r lies in the block of point r / 5000. -/
theorem covered (i : S100000x150.Idx) :
    ∃ t : Fin cfg0.N, (cfg0.win 5).flush t = true ∧ i ∈ ((cfg0.win 5).blk t).view.set := by
  have hi0 : (i 0).val < 100000 := (i 0).isLt
  have hi1 : (i 1).val < 150 := (i 1).isLt
  obtain ⟨t, ht⟩ := block_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 150 ≤ (i 1).val ∧ (i 1).val < win0_5.index t (1 : Fin 2) * 150 + 150; omega

/-- After the first dense call its result array is `hidden` of the arrays the call was entered with. -/
theorem array_eq (c : Dev nD) :
    (dat0 V c).arrAt 5 cfg0.N
      = hidden (V c main_arg0) (V c main_v18) (V c main_arg3) (V c main_arg4) (V c main_v19) :=
  (dat0 V c).arrAt_eq_of_cover 5 _ (fun t _ => flushed_eq V c t) covered

end

end Cert.KernelIdeal.HiddenArray

end
-- ==== Proof.OutputBlock.lean ====
/-
  The output layer's block, index by index.

  One grid point of the second dense call holds a block of 5000 node rows of the hidden features. Its stored value at
  row r, column q is
      (Σₖ h[r,k]·Wself[k,q] + Σₖ hn[r,k]·Wneigh[k,q]) + b[0,q]
  over the extended reals, k ranging over the 150 hidden features: the narrowings to bf16 and the two shape casts are
  the identity there, each product into a zero accumulator is the plain sum, and the bias row is repeated down the rows.
  No rectifier follows this layer.
-/
import proofs.«124458_j2456721293647_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.OutputBlock

open Cert.KernelIdeal Cert.KernelIdeal.Gen Idealize.ShloMosaic Idealize.ShloMosaic.TcCoe Idealize.SL.Sem

variable [Facts]
open Facts₀ Facts

/-! ## The product's index maps, axis by axis -/

theorem lhs_axis0 (i : S5000x64.Idx) (q : dot_S5000x150_S150x64_S5000x64_1_0_0_1_n_n.contr.Idx) :
    (dot_S5000x150_S150x64_S5000x64_1_0_0_1_n_n.lhsIdx i q 0).val = (i 0).val := by
  unfold DotDims.lhsIdx
  rw [dif_neg (show ¬(0 : Fin S5000x150.rank) ∈ dot_S5000x150_S150x64_S5000x64_1_0_0_1_n_n.lhsBatch by decide), dif_pos (show (0 : Fin S5000x150.rank) ∈ dot_S5000x150_S150x64_S5000x64_1_0_0_1_n_n.lhsNonContracting by decide)]
  rfl
theorem lhs_axis1 (i : S5000x64.Idx) (q : dot_S5000x150_S150x64_S5000x64_1_0_0_1_n_n.contr.Idx) :
    (dot_S5000x150_S150x64_S5000x64_1_0_0_1_n_n.lhsIdx i q 1).val = (q ⟨0, by decide⟩).val :=
  dot_S5000x150_S150x64_S5000x64_1_0_0_1_n_n.lhsIdx_val_of_single rfl i q
theorem rhs_axis0 (i : S5000x64.Idx) (q : dot_S5000x150_S150x64_S5000x64_1_0_0_1_n_n.contr.Idx) :
    (dot_S5000x150_S150x64_S5000x64_1_0_0_1_n_n.rhsIdx i q 0).val = (q ⟨0, by decide⟩).val :=
  dot_S5000x150_S150x64_S5000x64_1_0_0_1_n_n.rhsIdx_val_of_single rfl i q
theorem rhs_axis1 (i : S5000x64.Idx) (q : dot_S5000x150_S150x64_S5000x64_1_0_0_1_n_n.contr.Idx) :
    (dot_S5000x150_S150x64_S5000x64_1_0_0_1_n_n.rhsIdx i q 1).val = (i 1).val := by
  unfold DotDims.rhsIdx
  rw [dif_neg (show ¬(1 : Fin S150x64.rank) ∈ dot_S5000x150_S150x64_S5000x64_1_0_0_1_n_n.rhsBatch by decide), dif_pos (show (1 : Fin S150x64.rank) ∈ dot_S5000x150_S150x64_S5000x64_1_0_0_1_n_n.rhsNonContracting by decide)]
  rfl

/-- Row `i 0` of a 5000×150 block at hidden feature `k`. -/
abbrev rowAt (i : S5000x64.Idx) (k : Fin 150) : S5000x150.Idx := fun a => match a with
  | ⟨0, _⟩ => ⟨(i 0).val, (i 0).isLt⟩
  | ⟨1, _⟩ => ⟨k.val, k.isLt⟩
/-- Hidden feature `k` of a 150×64 weight at column `i 1`. -/
abbrev colAt (i : S5000x64.Idx) (k : Fin 150) : S150x64.Idx := fun a => match a with
  | ⟨0, _⟩ => ⟨k.val, k.isLt⟩
  | ⟨1, _⟩ => ⟨(i 1).val, (i 1).isLt⟩
/-- The bias row at column `i 1`. -/
abbrev biasAt (i : S5000x64.Idx) : S1x64.Idx := fun a => match a with
  | ⟨0, _⟩ => ⟨0, Nat.one_pos⟩
  | ⟨1, _⟩ => ⟨(i 1).val, (i 1).isLt⟩

/-- A product into a zero accumulator is the sum over the 150 hidden features. -/
theorem product_apply (a : FVec Ideal S5000x150 .bf16) (b : FVec Ideal S150x64 .bf16) (i : S5000x64.Idx) :
    matmul dot_S5000x150_S150x64_S5000x64_1_0_0_1_n_n none a b (constant (F := Ideal) S5000x64 .f32 0x00000000#32) i
      = ∑ k : Fin 150, a (rowAt i k) * b (colAt i k) := by
  refine (Ideal.matmul_constant_zero_apply dot_S5000x150_S150x64_S5000x64_1_0_0_1_n_n none a b i).trans ?_
  rw [← Equiv.sum_comp (ValueIdx.contrEquiv1 dot_S5000x150_S150x64_S5000x64_1_0_0_1_n_n 150 rfl rfl).symm]
  refine Finset.sum_congr rfl fun k _ => ?_
  have hk := ValueIdx.contrEquiv1_symm_val dot_S5000x150_S150x64_S5000x64_1_0_0_1_n_n 150 rfl rfl k
  have el : dot_S5000x150_S150x64_S5000x64_1_0_0_1_n_n.lhsIdx i ((ValueIdx.contrEquiv1 dot_S5000x150_S150x64_S5000x64_1_0_0_1_n_n 150 rfl rfl).symm k) = rowAt i k := funext fun a => Fin.ext (by
    match a with
    | ⟨0, _⟩ => exact lhs_axis0 _ _
    | ⟨1, _⟩ => exact (lhs_axis1 _ _).trans hk)
  have er : dot_S5000x150_S150x64_S5000x64_1_0_0_1_n_n.rhsIdx i ((ValueIdx.contrEquiv1 dot_S5000x150_S150x64_S5000x64_1_0_0_1_n_n 150 rfl rfl).symm k) = colAt i k := funext fun a => Fin.ext (by
    match a with
    | ⟨0, _⟩ => exact (rhs_axis0 _ _).trans hk
    | ⟨1, _⟩ => exact rhs_axis1 _ _)
  rw [el, er]

/-- The bias row repeated down the block's rows. -/
theorem bias_apply (brow : S1x64.Idx → EReal) (h : S1x64.Broadcasts S5000x64) (i : S5000x64.Idx) :
    broadcastTo S5000x64 brow h i = brow (biasAt i) :=
  broadcastTo_apply brow h i (biasAt i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The block's stored value at an index. -/
theorem payload_apply (h hn : Vec Ideal S5000x150 .f32) (ws wn : Vec Ideal S150x64 .f32) (brow : Vec Ideal S1x64 .f32)
    (i : S5000x64.Idx) :
    k1_pay1 (F := Ideal) h hn ws wn brow i
      = (∑ k : Fin 150, h (rowAt i k) * ws (colAt i k)) + (∑ k : Fin 150, hn (rowAt i k) * wn (colAt i k))
          + brow (biasAt i) := by
  unfold k1_pay1
  simp only [ValueIdx.addf_apply, product_apply, ValueIdx.truncf_apply, shapeCast_self, bias_apply]

end Cert.KernelIdeal.OutputBlock

end
-- ==== Proof.OutputArray.lean ====
/-
  The network's result as ONE array.

  The second dense call runs over twenty blocks of 5000 node rows. Point t reads rows 5000·t … 5000·t+4999 of the
  hidden features and of their neighbourhood means, the whole of the two 150×64 weights and of the 1×64 bias row, and
  writes back rows 5000·t … 5000·t+4999 of the result. Every point's block is the restriction of one function of the
  whole arrays, `output`; the twenty blocks tile the 100000 rows; so after the call the result array is `output`.
-/
import proofs.«124458_j2456721293647_1_alg».proof.Proof.Gen.KernelIdeal.Frame
import proofs.«124458_j2456721293647_1_alg».proof.Proof.OutputBlock

set_option maxRecDepth 16384

noncomputable section

namespace Cert.KernelIdeal.OutputArray

open Cert.KernelIdeal Cert.KernelIdeal.Gen Idealize.ShloMosaic Idealize.ShloMosaic.TcCoe Idealize.SL.Sem
open Idealize.ShloMosaic.Pipeline (Dat Cfg Window)

variable [Facts]
open Facts₀ Facts

/-- Node row `i 0` at hidden feature `k`. -/
abbrev rowAt (i : S100000x64.Idx) (k : Fin 150) : S100000x150.Idx := fun a => match a with
  | ⟨0, _⟩ => ⟨(i 0).val, (i 0).isLt⟩
  | ⟨1, _⟩ => ⟨k.val, k.isLt⟩
/-- Hidden feature `k` of a 150×64 weight at output column `i 1`. -/
abbrev colAt (i : S100000x64.Idx) (k : Fin 150) : S150x64.Idx := fun a => match a with
  | ⟨0, _⟩ => ⟨k.val, k.isLt⟩
  | ⟨1, _⟩ => ⟨(i 1).val, (i 1).isLt⟩
/-- The bias row at output column `i 1`. -/
abbrev biasAt (i : S100000x64.Idx) : S1x64.Idx := fun a => match a with
  | ⟨0, _⟩ => ⟨0, Nat.one_pos⟩
  | ⟨1, _⟩ => ⟨(i 1).val, (i 1).isLt⟩

/-- The output features of every node: (h·Wself + hn·Wneigh) + b, entry by entry. -/
def output (h hn : Vec Ideal S100000x150 .f32) (ws wn : Vec Ideal S150x64 .f32) (brow : Vec Ideal S1x64 .f32) :
    Vec Ideal S100000x64 .f32 := fun i =>
  (∑ k : Fin 150, h (rowAt i k) * ws (colAt i k)) + (∑ k : Fin 150, hn (rowAt i k) * wn (colAt i k))
    + brow (biasAt i)

theorem zeros : (![0, 0] : Fin 2 → Nat) = fun _ => 0 := funext fun a => by fin_cases a <;> rfl

/-- Where each window's block sits at point `t`: the two row-blocked inputs move with the output, the weights and the
    bias row stay at the origin, and the output's block row is the point's number. -/
theorem block_places : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every block row is some point's. -/
theorem block_onto : ∀ q0 : Fin 20, ∃ t : Fin cfg1.N, win1_5.index t = ![q0.val, 0] :=
  (by decide +kernel : ∀ q0 : Fin 20, ∃ t : Fin grid1.N, win1_5.index t = ![q0.val, 0])

/-- A block's stored value is `output` at the array index the block index sits at, once every element the block reads
    is the array's element at the matching place. -/
theorem block_eq (h hn : Vec Ideal S5000x150 .f32) (ws wn : Vec Ideal S150x64 .f32) (brow : Vec Ideal S1x64 .f32)
    (H HN : Vec Ideal S100000x150 .f32) (WS WN : Vec Ideal S150x64 .f32) (BROW : Vec Ideal S1x64 .f32)
    (j : S5000x64.Idx) (i : S100000x64.Idx)
    (hh : ∀ k, h (OutputBlock.rowAt j k) = H (rowAt i k)) (hhn : ∀ k, hn (OutputBlock.rowAt j k) = HN (rowAt i k))
    (hws : ∀ k, ws (OutputBlock.colAt j k) = WS (colAt i k)) (hwn : ∀ k, wn (OutputBlock.colAt j k) = WN (colAt i k))
    (hb : brow (OutputBlock.biasAt j) = BROW (biasAt i)) :
    k1_pay1 (F := Ideal) h hn ws wn brow j = output H HN WS WN BROW i := by
  rw [OutputBlock.payload_apply]
  unfold output
  simp only [hh, hhn, hws, hwn, hb]

section
variable (V : (c : Dev nD) → (b : Ref sig .tc) → Buf (Elt Ideal) ((c : Thread nD τ).loc b))

/-- What point `t` writes back is block `t` of `output` of the arrays as the call finds them. -/
theorem flushed_eq (c : Dev nD) (t : Fin cfg1.N) :
    (dat1 V c).flushed 5 t = ((cfg1.win 5).blk t).view.read (Elt Ideal)
      (output (V c main_v20) (V c main_v39) (V c main_arg6) (V c main_arg7) (V c main_v40)) := by
  show (cfg1.win 5).cut (grid1.coords t) ((dat1 V c).after 5 t) = _
  rw [after1_5]
  unfold out1_5
  rw [View.canon_unit_zero zeros]
  simp only [View.ld_unit_zero (S := S5000x150) zeros, View.ld_unit_zero (S := S150x64) zeros, View.ld_unit_zero (S := S1x64) zeros]
  refine funext fun (j : S5000x64.Idx) => ?_
  obtain ⟨e00, e01, e10, e11, e20, e21, e30, e31, e40, e41, e51, -⟩ := block_places t
  refine block_eq _ _ _ _ _ (V c main_v20) (V c main_v39) (V c main_arg6) (V c main_arg7) (V c main_v40) j
    (((cfg1.win 5).blk t).view.emb j) ?_ ?_ ?_ ?_ ?_
  · intro k
    have h : ((cfg1.win 0).blk t).view.emb (OutputBlock.rowAt j k) = rowAt (((cfg1.win 5).blk t).view.emb j) k := by
      funext a; apply Fin.ext
      match a with
      | ⟨0, _⟩ => show win1_0.index t (0 : Fin 2) * 5000 + 1 * (j 0).val = win1_5.index t (0 : Fin 2) * 5000 + 1 * (j 0).val; omega
      | ⟨1, _⟩ => show win1_0.index t (1 : Fin 2) * 150 + 1 * k.val = k.val; omega
    show V c main_v20 (((cfg1.win 0).blk t).view.emb (OutputBlock.rowAt j k)) = _
    rw [h]
  · intro k
    have h : ((cfg1.win 1).blk t).view.emb (OutputBlock.rowAt j k) = rowAt (((cfg1.win 5).blk t).view.emb j) k := by
      funext a; apply Fin.ext
      match a with
      | ⟨0, _⟩ => show win1_1.index t (0 : Fin 2) * 5000 + 1 * (j 0).val = win1_5.index t (0 : Fin 2) * 5000 + 1 * (j 0).val; omega
      | ⟨1, _⟩ => show win1_1.index t (1 : Fin 2) * 150 + 1 * k.val = k.val; omega
    show V c main_v39 (((cfg1.win 1).blk t).view.emb (OutputBlock.rowAt j k)) = _
    rw [h]
  · intro k
    have h : ((cfg1.win 2).blk t).view.emb (OutputBlock.colAt j k) = colAt (((cfg1.win 5).blk t).view.emb j) k := by
      funext a; apply Fin.ext
      match a with
      | ⟨0, _⟩ => show win1_2.index t (0 : Fin 2) * 150 + 1 * k.val = k.val; omega
      | ⟨1, _⟩ => show win1_2.index t (1 : Fin 2) * 64 + 1 * (j 1).val = win1_5.index t (1 : Fin 2) * 64 + 1 * (j 1).val; omega
    show V c main_arg6 (((cfg1.win 2).blk t).view.emb (OutputBlock.colAt j k)) = _
    rw [h]
  · intro k
    have h : ((cfg1.win 3).blk t).view.emb (OutputBlock.colAt j k) = colAt (((cfg1.win 5).blk t).view.emb j) k := by
      funext a; apply Fin.ext
      match a with
      | ⟨0, _⟩ => show win1_3.index t (0 : Fin 2) * 150 + 1 * k.val = k.val; omega
      | ⟨1, _⟩ => show win1_3.index t (1 : Fin 2) * 64 + 1 * (j 1).val = win1_5.index t (1 : Fin 2) * 64 + 1 * (j 1).val; omega
    show V c main_arg7 (((cfg1.win 3).blk t).view.emb (OutputBlock.colAt j k)) = _
    rw [h]
  · have h : ((cfg1.win 4).blk t).view.emb (OutputBlock.biasAt j) = biasAt (((cfg1.win 5).blk t).view.emb j) := by
      funext a; apply Fin.ext
      match a with
      | ⟨0, _⟩ => show win1_4.index t (0 : Fin 2) * 1 + 1 * 0 = 0; omega
      | ⟨1, _⟩ => show win1_4.index t (1 : Fin 2) * 64 + 1 * (j 1).val = win1_5.index t (1 : Fin 2) * 64 + 1 * (j 1).val; omega
    show V c main_v40 (((cfg1.win 4).blk t).view.emb (OutputBlock.biasAt j)) = _
    rw [h]

/-- An index of the result array lies in point `t`'s block iff each coordinate lies in the block's range. -/
theorem mem_block (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v41).slice (win1_5.rect t)).set ↔ _
  rw [View.set_slice_whole, Rect.mem_set_unit]
  exact Iff.rfl

/-- The twenty blocks tile the array: row r lies in the block of point r / 5000. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := block_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the second dense call its result array is `output` of the arrays the call was entered with. -/
theorem array_eq (c : Dev nD) :
    (dat1 V c).arrAt 5 cfg1.N
      = output (V c main_v20) (V c main_v39) (V c main_arg6) (V c main_arg7) (V c main_v40) :=
  (dat1 V c).arrAt_eq_of_cover 5 _ (fun t _ => flushed_eq V c t) covered

end

end Cert.KernelIdeal.OutputArray

end
-- ==== Proof.Aggregate.lean ====
/-
  The neighbourhood mean, as the host computes it.

  For node features `x` and edge lists `src`, `dst`: gather `x` at the (wrapped) source of every edge, add the gathered
  rows into their destination's row, count the edges arriving at each node, and divide each row by max(count, 1).
  The program forms this mean twice, of the 3 input features and of the 150 hidden features, with the same operations;
  it is carried below as one function of its three arguments and never opened.
-/
import proofs.«124458_j2456721293647_1_alg».proof.KernelIdeal

noncomputable section

namespace Cert.KernelIdeal.Aggregate

open Cert.KernelIdeal Idealize.ShloMosaic Idealize.ShloMosaic.TcCoe Idealize.SL.Sem

variable {F : FTy → Type} [FloatOps F] [Facts]
open Facts₀ Facts

/-- The source index of every edge, a negative one counted from the end. -/
def wrappedSource (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- max(number of edges arriving at each node, 1). -/
def degree (dst : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The mean of the 3 input features over each node's incoming edges. -/
def neighbourMean3 (x : (⟨S100000x3, .f32⟩ : BufTy).Contents (Elt F))
    (src dst : (⟨S1600000, .i32⟩ : BufTy).Contents (Elt F)) : (⟨S100000x3, .f32⟩ : BufTy).Contents (Elt F) :=
  Host.divf
    (Host.scatterAdd scatter_S100000x3_S1600000x1_S1600000x3_1_0_0_1
      (broadcastInDim S100000x3 ![] bcast_S_S100000x3 (constant S_ .f32 0x00000000#32))
      (broadcastInDim S1600000x1 ![0] bcast_S1600000_S1600000x1_0 dst)
      (Host.gather gather_S100000x3_S1600000x1_S1600000x3_1_0_n_n_0_1_13 x (wrappedSource src)))
    (broadcastInDim S100000x3 ![0, 1] bcast_S100000x1_S100000x3_0_1
      (broadcastInDim S100000x1 ![0] bcast_S100000_S100000x1_0 (degree dst)))

/-- The mean of the 150 hidden features over each node's incoming edges. -/
def neighbourMean150 (h : (⟨S100000x150, .f32⟩ : BufTy).Contents (Elt F))
    (src dst : (⟨S1600000, .i32⟩ : BufTy).Contents (Elt F)) : (⟨S100000x150, .f32⟩ : BufTy).Contents (Elt F) :=
  Host.divf
    (Host.scatterAdd scatter_S100000x150_S1600000x1_S1600000x150_1_0_0_1
      (broadcastInDim S100000x150 ![] bcast_S_S100000x150 (constant S_ .f32 0x00000000#32))
      (broadcastInDim S1600000x1 ![0] bcast_S1600000_S1600000x1_0 dst)
      (Host.gather gather_S100000x150_S1600000x1_S1600000x150_1_0_n_n_0_1_1150 h (wrappedSource src)))
    (broadcastInDim S100000x150 ![0, 1] bcast_S100000x1_S100000x150_0_1
      (broadcastInDim S100000x1 ![0] bcast_S100000_S100000x1_0 (degree dst)))

/-- The 150 biases as a row. -/
def biasRow1 (b : (⟨S150, .f32⟩ : BufTy).Contents (Elt F)) : (⟨S1x150, .f32⟩ : BufTy).Contents (Elt F) :=
  shapeCast S1x150 b shapeCasts_S150_S1x150

/-- The 64 biases as a row. -/
def biasRow2 (b : (⟨S64, .f32⟩ : BufTy).Contents (Elt F)) : (⟨S1x64, .f32⟩ : BufTy).Contents (Elt F) :=
  shapeCast S1x64 b shapeCasts_S64_S1x64

end Cert.KernelIdeal.Aggregate

end
-- ==== Proof.HostValues.lean ====
/-
  The arrays each dense call is entered with.

  Before the first call the host has formed the neighbourhood mean of the input features and laid the 150 biases out
  as a row; the node features and the two weights are the program's arguments, untouched. Between the calls the host
  forms the neighbourhood mean of the hidden features the first call left, and lays the 64 biases out as a row; the
  hidden features themselves and the second layer's weights are untouched by those operations.
-/
import proofs.«124458_j2456721293647_1_alg».proof.Proof.Gen.KernelIdeal.Frame
import proofs.«124458_j2456721293647_1_alg».proof.Proof.Aggregate
import Idealize.ShloMosaic.Lib.StableHlo.Run

set_option maxRecDepth 16384

noncomputable section

namespace Cert.KernelIdeal.HostValues

open Cert.KernelIdeal Cert.KernelIdeal.Gen Cert.KernelIdeal.Aggregate
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Entering the first dense call -/

theorem first_features (c : Dev nD) :
    W1 m ρ c (Proc.devRef .tc main_arg0) = m ((c.tc : Thread nD τ).loc main_arg0) := by
  show StableHlo.after hostOps0 (W0 m ρ c) (Proc.devRef .tc main_arg0) = _
  after_results_simp <;> rfl

theorem first_wself (c : Dev nD) :
    W1 m ρ c (Proc.devRef .tc main_arg3) = m ((c.tc : Thread nD τ).loc main_arg3) := by
  show StableHlo.after hostOps0 (W0 m ρ c) (Proc.devRef .tc main_arg3) = _
  after_results_simp <;> rfl

theorem first_wneigh (c : Dev nD) :
    W1 m ρ c (Proc.devRef .tc main_arg4) = m ((c.tc : Thread nD τ).loc main_arg4) := by
  show StableHlo.after hostOps0 (W0 m ρ c) (Proc.devRef .tc main_arg4) = _
  after_results_simp <;> rfl

set_option maxHeartbeats 8000000 in
theorem first_means (c : Dev nD) :
    W1 m ρ c (Proc.devRef .tc main_v18)
      = neighbourMean3 (m ((c.tc : Thread nD τ).loc main_arg0)) (m ((c.tc : Thread nD τ).loc main_arg1))
          (m ((c.tc : Thread nD τ).loc main_arg2)) := by
  show StableHlo.after hostOps0 (W0 m ρ c) (Proc.devRef .tc main_v18) = _
  after_results_simp
  rfl

theorem first_bias (c : Dev nD) :
    W1 m ρ c (Proc.devRef .tc main_v19) = biasRow1 (m ((c.tc : Thread nD τ).loc main_arg5)) := by
  show StableHlo.after hostOps0 (W0 m ρ c) (Proc.devRef .tc main_v19) = _
  after_results
  rfl

/-! ## Between the calls: what the first call's exit leaves of the arguments -/

theorem mid_arg (c : Dev nD) (b : Ref sig .tc) (hb : ∀ w, Pipeline.arrRef spec0 w ≠ b)
    (h1 : W1 m ρ c (Proc.devRef .tc b) = m ((c.tc : Thread nD τ).loc b)) :
    W2 m ρ c (Proc.devRef .tc b) = m ((c.tc : Thread nD τ).loc b) :=
  (W2_of_ne m ρ c b hb).trans h1

theorem mid_src (c : Dev nD) : W2 m ρ c (Proc.devRef .tc main_arg1) = m ((c.tc : Thread nD τ).loc main_arg1) :=
  mid_arg m ρ c main_arg1 (by decide) (by
    show StableHlo.after hostOps0 (W0 m ρ c) (Proc.devRef .tc main_arg1) = _
    after_results_simp <;> rfl)

theorem mid_dst (c : Dev nD) : W2 m ρ c (Proc.devRef .tc main_arg2) = m ((c.tc : Thread nD τ).loc main_arg2) :=
  mid_arg m ρ c main_arg2 (by decide) (by
    show StableHlo.after hostOps0 (W0 m ρ c) (Proc.devRef .tc main_arg2) = _
    after_results_simp <;> rfl)

theorem mid_wself (c : Dev nD) : W2 m ρ c (Proc.devRef .tc main_arg6) = m ((c.tc : Thread nD τ).loc main_arg6) :=
  mid_arg m ρ c main_arg6 (by decide) (by
    show StableHlo.after hostOps0 (W0 m ρ c) (Proc.devRef .tc main_arg6) = _
    after_results_simp <;> rfl)

theorem mid_wneigh (c : Dev nD) : W2 m ρ c (Proc.devRef .tc main_arg7) = m ((c.tc : Thread nD τ).loc main_arg7) :=
  mid_arg m ρ c main_arg7 (by decide) (by
    show StableHlo.after hostOps0 (W0 m ρ c) (Proc.devRef .tc main_arg7) = _
    after_results_simp <;> rfl)

theorem mid_biases (c : Dev nD) : W2 m ρ c (Proc.devRef .tc main_arg8) = m ((c.tc : Thread nD τ).loc main_arg8) :=
  mid_arg m ρ c main_arg8 (by decide) (by
    show StableHlo.after hostOps0 (W0 m ρ c) (Proc.devRef .tc main_arg8) = _
    after_results_simp <;> rfl)

/-! ## Entering the second dense call -/

theorem second_hidden (c : Dev nD) :
    W3 m ρ c (Proc.devRef .tc main_v20) = W2 m ρ c (Proc.devRef .tc main_v20) := by
  show StableHlo.after hostOps1 (W2 m ρ c) (Proc.devRef .tc main_v20) = _
  after_results_simp <;> rfl

theorem second_wself (c : Dev nD) :
    W3 m ρ c (Proc.devRef .tc main_arg6) = m ((c.tc : Thread nD τ).loc main_arg6) := by
  refine Eq.trans ?_ (mid_wself m ρ c)
  show StableHlo.after hostOps1 (W2 m ρ c) (Proc.devRef .tc main_arg6) = _
  after_results_simp <;> rfl

theorem second_wneigh (c : Dev nD) :
    W3 m ρ c (Proc.devRef .tc main_arg7) = m ((c.tc : Thread nD τ).loc main_arg7) := by
  refine Eq.trans ?_ (mid_wneigh m ρ c)
  show StableHlo.after hostOps1 (W2 m ρ c) (Proc.devRef .tc main_arg7) = _
  after_results_simp <;> rfl

set_option maxHeartbeats 8000000 in
theorem second_means (c : Dev nD) :
    W3 m ρ c (Proc.devRef .tc main_v39)
      = neighbourMean150 (W2 m ρ c (Proc.devRef .tc main_v20)) (m ((c.tc : Thread nD τ).loc main_arg1))
          (m ((c.tc : Thread nD τ).loc main_arg2)) := by
  rw [← mid_src m ρ c, ← mid_dst m ρ c]
  show StableHlo.after hostOps1 (W2 m ρ c) (Proc.devRef .tc main_v39) = _
  after_results_simp
  rfl

theorem second_bias (c : Dev nD) :
    W3 m ρ c (Proc.devRef .tc main_v40) = biasRow2 (m ((c.tc : Thread nD τ).loc main_arg8)) := by
  rw [← mid_biases m ρ c]
  show StableHlo.after hostOps1 (W2 m ρ c) (Proc.devRef .tc main_v40) = _
  after_results
  rfl

end Cert.KernelIdeal.HostValues

end
-- ==== Proof.KernelValue.lean ====
/-
  The program's result as one function of its arguments.

  The hidden features are `hidden` of the node features, their neighbourhood mean, the first layer's weights and its
  bias row; the result is `output` of the hidden features, THEIR neighbourhood mean, the second layer's weights and its
  bias row. Each dense call's array is read off its blocks; each host stretch hands the next call its arrays.
-/
import proofs.«124458_j2456721293647_1_alg».proof.Proof.HiddenArray
import proofs.«124458_j2456721293647_1_alg».proof.Proof.OutputArray
import proofs.«124458_j2456721293647_1_alg».proof.Proof.HostValues
import proofs.«124458_j2456721293647_1_alg».proof.Proof.ResultRun

set_option maxRecDepth 16384

noncomputable section

namespace Cert.KernelIdeal.KernelValue

open Cert.KernelIdeal Cert.KernelIdeal.Gen Cert.KernelIdeal.Aggregate Cert.KernelIdeal.HostValues
open Cert.KernelIdeal.HiddenArray Cert.KernelIdeal.OutputArray
open Idealize.ShloMosaic Idealize.ShloMosaic.TcCoe Idealize.SL.Sem

/-- Two graph-convolution layers with mean aggregation, a rectifier between them. -/
def network (x : Vec Ideal S100000x3 .f32) (src dst : (⟨S1600000, .i32⟩ : BufTy).Contents (Elt Ideal))
    (w1s w1n : Vec Ideal S3x150 .f32) (b1 : (⟨S150, .f32⟩ : BufTy).Contents (Elt Ideal))
    (w2s w2n : Vec Ideal S150x64 .f32) (b2 : (⟨S64, .f32⟩ : BufTy).Contents (Elt Ideal)) : Vec Ideal S100000x64 .f32 :=
  output (hidden x (neighbourMean3 x src dst) w1s w1n (biasRow1 b1))
    (neighbourMean150 (hidden x (neighbourMean3 x src dst) w1s w1n (biasRow1 b1)) src dst) w2s w2n (biasRow2 b2)

variable (m : (ℓ : Loc nD τ sig) → Buf (Elt Ideal) ℓ) (ρ : Dev nD → PrngReg)

/-- What the first dense call leaves: the hidden features of the arguments. -/
theorem hidden_array (c : Dev nD) :
    W2 m ρ c (Proc.devRef .tc main_v20)
      = hidden (m ((c.tc : Thread nD τ).loc main_arg0)) (neighbourMean3 (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (biasRow1 (m ((c.tc : Thread nD τ).loc main_arg5))) := by
  refine ((W2_arr m ρ c 5).trans (HiddenArray.array_eq (V1 m ρ) c)).trans ?_
  show hidden (W1 m ρ c (Proc.devRef .tc main_arg0)) (W1 m ρ c (Proc.devRef .tc main_v18))
    (W1 m ρ c (Proc.devRef .tc main_arg3)) (W1 m ρ c (Proc.devRef .tc main_arg4)) (W1 m ρ c (Proc.devRef .tc main_v19)) = _
  rw [first_features, first_means, first_wself, first_wneigh, first_bias]

/-- What the second dense call leaves: the network of the arguments. -/
theorem result_array (c : Dev nD) :
    W4 m ρ c (Proc.devRef .tc main_v41)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  refine ((W4_arr m ρ c 5).trans (OutputArray.array_eq (V3 m ρ) c)).trans ?_
  show output (W3 m ρ c (Proc.devRef .tc main_v20)) (W3 m ρ c (Proc.devRef .tc main_v39))
    (W3 m ρ c (Proc.devRef .tc main_arg6)) (W3 m ρ c (Proc.devRef .tc main_arg7)) (W3 m ρ c (Proc.devRef .tc main_v40)) = _
  rw [second_hidden, second_means, second_wself, second_wneigh, second_bias, hidden_array]
  rfl

/-- Every weakly fair execution of the program terminates with its result at the network of the arguments, the
    arguments as launched. -/
theorem run : θ_run defs (onTc (τ := τ) (main (F := Ideal))) ⟨m, fun _ => 0, ρ⟩ (fun r => ∀ c : Dev nD,
      r.2.mem ((c.tc : Thread nD τ).loc main_v41)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_array m ρ c), (h c).2⟩) (ResultRun.run m ρ)

end Cert.KernelIdeal.KernelValue

end
-- ==== Proof.RefValue.lean ====
/-
  The reference, entry by entry.

  The reference forms the hidden features as max((x·Wself + mean(x)·Wneigh) + b₁, 0) and the result as
  (h·Wself + mean(h)·Wneigh) + b₂, each product a sum over the contracted feature, each bias repeated down the rows.
  Here both are read at an index, the two neighbourhood means left as the stages they are.
-/
import proofs.«124458_j2456721293647_1_alg».proof.Proof.Gen.ReferenceIdeal.Run
import proofs.«124458_j2456721293647_1_alg».proof.Proof.Gen.ReferenceIdeal.Read

noncomputable section

namespace Cert.ReferenceIdeal.RefValue

open Cert.ReferenceIdeal Cert.ReferenceIdeal.Read Idealize.ShloMosaic Idealize.ShloMosaic.TcCoe Idealize.SL.Sem

/-- The hidden features at an index. -/
theorem hidden_apply (x0 : (⟨S100000x3, .f32⟩ : BufTy).Contents (Elt Ideal)) (x1 x2 : (⟨S1600000, .i32⟩ : BufTy).Contents (Elt Ideal))
    (x3 x4 : (⟨S3x150, .f32⟩ : BufTy).Contents (Elt Ideal)) (x5 : (⟨S150, .f32⟩ : BufTy).Contents (Elt Ideal)) (i : S100000x150.Idx) :
    val_main_v25 (F := Ideal) x0 x1 x2 x3 x4 x5 i
      = max ((∑ k : Fin 3, x0 (lidx_main_v19 i k) * x3 (ridx_main_v19 i k))
          + (∑ k : Fin 3, (val_main_v18 (F := Ideal) x0 x1 x2) (lidx_main_v20 i k) * x4 (ridx_main_v20 i k))
          + x5 (idx_main_v22 (idx_main_v23 i))) 0 := by
  rw [val_main_v25_apply, val_main_v24_apply, val_main_v21_apply, val_main_v19_apply, val_main_v20_apply,
    val_main_v23_apply, val_main_v22_apply, val_main_call0_v0_apply, val_main_call0_cst_apply]
  simp only [Ideal.maximumf_def, Ideal.addf_def, Ideal.ofBits_def, Ideal.ofBits_zero_f32]

/-- The result at an index. -/
theorem result_apply (x0 : (⟨S100000x3, .f32⟩ : BufTy).Contents (Elt Ideal)) (x1 x2 : (⟨S1600000, .i32⟩ : BufTy).Contents (Elt Ideal))
    (x3 x4 : (⟨S3x150, .f32⟩ : BufTy).Contents (Elt Ideal)) (x5 : (⟨S150, .f32⟩ : BufTy).Contents (Elt Ideal)) (x6 x7 : (⟨S150x64, .f32⟩ : BufTy).Contents (Elt Ideal))
    (x8 : (⟨S64, .f32⟩ : BufTy).Contents (Elt Ideal)) (i : S100000x64.Idx) :
    val_main_v50 (F := Ideal) x0 x1 x2 x3 x4 x5 x6 x7 x8 i
      = (∑ k : Fin 150, (val_main_v25 (F := Ideal) x0 x1 x2 x3 x4 x5) (lidx_main_v45 i k) * x6 (ridx_main_v45 i k))
          + (∑ k : Fin 150, (val_main_v44 (F := Ideal) x0 x1 x2 x3 x4 x5) (lidx_main_v46 i k) * x7 (ridx_main_v46 i k))
          + x8 (idx_main_v48 (idx_main_v49 i)) := by
  rw [val_main_v50_apply, val_main_v47_apply, val_main_v45_apply, val_main_v46_apply, val_main_v49_apply,
    val_main_v48_apply]
  simp only [Ideal.addf_def]

end Cert.ReferenceIdeal.RefValue

end
-- ==== Proof.Bridge.lean ====
/-
  The two programs compute one function.

  The reference's neighbourhood means are the program's (the same host operations on the same arguments); its hidden
  features are `hidden` entry by entry (the same two sums over the three input features, the same bias entry, the same
  maximum with zero); its result is `output` of those hidden features entry by entry. So the reference's result stage
  is `network` of the arguments. Only commutative-monoid sums are compared term by term: nothing here needs the inputs
  finite.
-/
import proofs.«124458_j2456721293647_1_alg».proof.Proof.KernelValue
import proofs.«124458_j2456721293647_1_alg».proof.Proof.RefValue
import Idealize.ShloMosaic.Lib.Pipeline.Value

set_option maxRecDepth 16384

noncomputable section

namespace Cert.Bridge

open Idealize.ShloMosaic Idealize.ShloMosaic.TcCoe Idealize.SL.Sem
open Cert.ReferenceIdeal.Read Cert.KernelIdeal.Aggregate Cert.KernelIdeal.KernelValue

variable (x0 : Vec Ideal Cert.KernelIdeal.S100000x3 .f32) (x1 x2 : (⟨Cert.KernelIdeal.S1600000, .i32⟩ : BufTy).Contents (Elt Ideal))
  (x3 x4 : Vec Ideal Cert.KernelIdeal.S3x150 .f32) (x5 : (⟨Cert.KernelIdeal.S150, .f32⟩ : BufTy).Contents (Elt Ideal))
  (x6 x7 : Vec Ideal Cert.KernelIdeal.S150x64 .f32) (x8 : (⟨Cert.KernelIdeal.S64, .f32⟩ : BufTy).Contents (Elt Ideal))

/-- The reference's mean of the input features is the program's. -/
theorem means3 : val_main_v18 (F := Ideal) x0 x1 x2 = neighbourMean3 x0 x1 x2 := by
  unfold val_main_v18 val_main_v9 val_main_v17 val_main_v16 val_main_v15 val_main_v13 val_main_v14 val_main_v12
    val_main_v11 val_main_v10 val_main_v8 val_main_v7 val_main_v6 val_main_v5 val_main_v4 val_main_v3 val_main_v2
    val_main_v1 val_main_v0 val_main_c val_main_c_0 val_main_cst val_main_cst_1 val_main_cst_2 val_main_cst_3
    neighbourMean3 wrappedSource degree
  rfl

/-- The reference's mean of the hidden features is the program's, of the reference's hidden features. -/
theorem means150 :
    val_main_v44 (F := Ideal) x0 x1 x2 x3 x4 x5 = neighbourMean150 (val_main_v25 (F := Ideal) x0 x1 x2 x3 x4 x5) x1 x2 := by
  unfold val_main_v44 val_main_v35 val_main_v43 val_main_v42 val_main_v41 val_main_v39 val_main_v40 val_main_v38
    val_main_v37 val_main_v36 val_main_v34 val_main_v33 val_main_v32 val_main_v31 val_main_v30 val_main_v29 val_main_v28
    val_main_v27 val_main_v26 val_main_c_4 val_main_c_5 val_main_cst_6 val_main_cst_7 val_main_cst_8 val_main_cst_9
    neighbourMean150 wrappedSource degree
  rfl

/-- A bias laid out as a row, read at a column. -/
theorem biasRow1_apply (i : Cert.KernelIdeal.S100000x150.Idx) :
    biasRow1 x5 (Cert.KernelIdeal.HiddenArray.biasAt i) = x5 (idx_main_v22 (idx_main_v23 i)) := by
  unfold biasRow1
  refine shapeCast_apply x5 _ _ _ ?_
  rw [Shape.rowMajor_val_one, Shape.rowMajor_val_two]
  show (i 1).val = 0 * 150 + (i 1).val
  omega

theorem biasRow2_apply (i : Cert.KernelIdeal.S100000x64.Idx) :
    biasRow2 x8 (Cert.KernelIdeal.OutputArray.biasAt i) = x8 (idx_main_v48 (idx_main_v49 i)) := by
  unfold biasRow2
  refine shapeCast_apply x8 _ _ _ ?_
  rw [Shape.rowMajor_val_one, Shape.rowMajor_val_two]
  show (i 1).val = 0 * 64 + (i 1).val
  omega

/-- The reference's hidden features are `hidden` of the arguments. -/
theorem hidden_eq :
    val_main_v25 (F := Ideal) x0 x1 x2 x3 x4 x5
      = Cert.KernelIdeal.HiddenArray.hidden x0 (neighbourMean3 x0 x1 x2) x3 x4 (biasRow1 x5) := by
  funext i
  rw [Cert.ReferenceIdeal.RefValue.hidden_apply, means3]
  unfold Cert.KernelIdeal.HiddenArray.hidden
  rw [biasRow1_apply]
  rfl

/-- The reference's result is `network` of the arguments. -/
theorem result_eq :
    val_main_v50 (F := Ideal) x0 x1 x2 x3 x4 x5 x6 x7 x8 = network x0 x1 x2 x3 x4 x5 x6 x7 x8 := by
  funext i
  rw [Cert.ReferenceIdeal.RefValue.result_apply, means150, hidden_eq]
  unfold network Cert.KernelIdeal.OutputArray.output
  rw [biasRow2_apply]
  rfl

end Cert.Bridge

end
-- ==== Proof.lean ====
/-
  Two-layer graph convolution with mean aggregation: the tiled program against the plain one.

  Both programs form, for 100000 nodes and 1600000 edges, the hidden features
      h = max((x·W₁self + mean(x)·W₁neigh) + b₁, 0)
  and the result
      out = (h·W₂self + mean(h)·W₂neigh) + b₂,
  where mean(·) averages a node's features over its incoming edges (gather at the edge sources, add into the edge
  destinations, divide by max(in-degree, 1)). The neighbourhood means are the same host operations in both programs.
  The tiled program computes each dense layer in twenty blocks of 5000 node rows, with operands narrowed to bf16 and
  the products accumulated in f32 from zero; over the extended reals the narrowings are the identity and each product
  is the plain sum over the contracted feature, so every block is the restriction of one whole-array function and the
  blocks tile the rows. The two results are then the same function of the arguments, term by term: no distributivity
  or cancellation is used, so the finiteness of the inputs is never opened.

  The three frames: the two tiled programs' from their generated launch proofs, the plain program's from its generated
  run. The idealization rewrote nothing, so there is nothing to preserve.
-/
import proofs.«124458_j2456721293647_1_alg».proof.Defs
import proofs.«124458_j2456721293647_1_alg».proof.Proof.Gen.Kernel
import proofs.«124458_j2456721293647_1_alg».proof.Proof.Gen.Kernel.Frame
import proofs.«124458_j2456721293647_1_alg».proof.Proof.Gen.KernelIdeal
import proofs.«124458_j2456721293647_1_alg».proof.Proof.Gen.KernelIdeal.Frame
import proofs.«124458_j2456721293647_1_alg».proof.Proof.Gen.ReferenceIdeal
import proofs.«124458_j2456721293647_1_alg».proof.Proof.Gen.ReferenceIdeal.Run
import proofs.«124458_j2456721293647_1_alg».proof.Proof.Gen.ReferenceIdeal.Read
import proofs.«124458_j2456721293647_1_alg».proof.Proof.Gen.Pre_finite_inputs
import proofs.«124458_j2456721293647_1_alg».proof.Proof.KernelValue
import proofs.«124458_j2456721293647_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `network` of the arguments they agree on. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v50_eq, e0, e1, e2, e3, e4, e5, e6, e7, e8]
  exact Cert.Bridge.result_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
